-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S1048576x128 .f32) (main_arg1 : IVec S1048576 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S1048576x128 : Shape := ⟨2, ![1048576, 128]⟩
abbrev S1048576 : Shape := ⟨1, ![1048576]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩
abbrev S_ : Shape := ⟨0, ![]⟩
abbrev S50000x128 : Shape := ⟨2, ![50000, 128]⟩
abbrev S1048576x1 : Shape := ⟨2, ![1048576, 1]⟩
abbrev S50000x1 : Shape := ⟨2, ![50000, 1]⟩
abbrev S50176x128 : Shape := ⟨2, ![50176, 128]⟩
abbrev S512x128 : Shape := ⟨2, ![512, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 53
  | .vmem => 16
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S1048576x128, .f32⟩
  | .hbm, ⟨14, _⟩ => ⟨S_, .f32⟩
  | .hbm, ⟨15, _⟩ => ⟨S50000x128, .f32⟩
  | .hbm, ⟨16, _⟩ => ⟨S1048576x1, .i32⟩
  | .hbm, ⟨17, _⟩ => ⟨S50000x128, .f32⟩
  | .hbm, ⟨18, _⟩ => ⟨S_, .f32⟩
  | .hbm, ⟨19, _⟩ => ⟨S1048576, .f32⟩
  | .hbm, ⟨20, _⟩ => ⟨S_, .f32⟩
  | .hbm, ⟨21, _⟩ => ⟨S50000, .f32⟩
  | .hbm, ⟨22, _⟩ => ⟨S1048576x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S_, .f32⟩
  | .hbm, ⟨32, _⟩ => ⟨S50176x128, .f32⟩
  | .hbm, ⟨33, _⟩ => ⟨S1x128, .f32⟩
  | .hbm, ⟨34, _⟩ => ⟨S1x128, .f32⟩
  | .hbm, ⟨35, _⟩ => ⟨S50176x128, .f32⟩
  | .hbm, ⟨36, _⟩ => ⟨S50000x128, .f32⟩
  | .hbm, ⟨37, _⟩ => ⟨S_, .f32⟩
  | .hbm, ⟨38, _⟩ => ⟨S2000x128, .f32⟩
  | .hbm, ⟨39, _⟩ => ⟨S50000x1, .i32⟩
  | .hbm, ⟨40, _⟩ => ⟨S2000x128, .f32⟩
  | .hbm, ⟨41, _⟩ => ⟨S_, .f32⟩
  | .hbm, ⟨42, _⟩ => ⟨S50000, .f32⟩
  | .hbm, ⟨43, _⟩ => ⟨S_, .f32⟩
  | .hbm, ⟨44, _⟩ => ⟨S2000, .f32⟩
  | .hbm, ⟨45, _⟩ => ⟨S50000x1, .i32⟩
  | .hbm, ⟨46, _⟩ => ⟨S2000, .f32⟩
  | .hbm, ⟨47, _⟩ => ⟨S_, .f32⟩
  | .hbm, ⟨48, _⟩ => ⟨S2000, .f32⟩
  | .hbm, ⟨49, _⟩ => ⟨S2000, .f32⟩
  | .hbm, ⟨50, _⟩ => ⟨S2000x1, .f32⟩
  | .hbm, ⟨51, _⟩ => ⟨S2000x128, .f32⟩
  | .hbm, ⟨52, _⟩ => ⟨S2000x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S512x128, .f32⟩
  | .local _ .vmem, ⟨9, _⟩ => ⟨S512x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S512x128, .f32⟩
  | .local _ .vmem, ⟨15, _⟩ => ⟨S512x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  bcast_S_S50000x128 : S_.BroadcastsInDim S50000x128 (![] : Fin 0 → Fin S50000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  pads_S50000x128_S50176x128_01760_000 : S50000x128.Pads (![0, 0] : Fin 2 → Nat) ![176, 0] ![0, 0] S50176x128
  h_S_ : 0 < S_.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  slices_S50176x128_S50000x128_0_0 : S50176x128.Slices ![0, 0] S50000x128
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  dot_S8192x128_S128x128_S8192x128_1_1_0_0_n_n_wf : DotDims.WF S8192x128 S128x128 S8192x128 [1] [1] [0] [0] [] []
  scatter_S50000x128_S1048576x1_S1048576x128_1_0_0_1_wf : ScatterDims.WF S50000x128 S1048576x1 S1048576x128 [1] [0] [0] 1
  scatter_S50000_S1048576x1_S1048576_n_0_0_1_wf : ScatterDims.WF S50000 S1048576x1 S1048576 [] [0] [0] 1
  dot_S512x128_S128x128_S512x128_1_1_0_0_n_n_wf : DotDims.WF S512x128 S128x128 S512x128 [1] [1] [0] [0] [] []
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S1048576x128.size a
  hwx0_5 : ∀ i : grid0.Coords, EltTy.bits .f32 = 32 ∨ (Rect.block (s := S1048576x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S50176x128.size a
  hwx1_0 : ∀ i : grid1.Coords, EltTy.bits .f32 = 32 ∨ (Rect.block (s := S50176x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S50176x128.size a
  hwx1_5 : ∀ i : grid1.Coords, EltTy.bits .f32 = 32 ∨ (Rect.block (s := S50176x128) S512x128.size (cc1_transform_5 i) (hinb1_5 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def scatter_S50000x128_S1048576x1_S1048576x128_1_0_0_1 : ScatterDims S50000x128 S1048576x1 S1048576x128 where
  updateWindowDims := [1]
  insertedWindowDims := [0]
  scatterDimsToOperandDims := [0]
  indexVectorDim := 1
  wf := scatter_S50000x128_S1048576x1_S1048576x128_1_0_0_1_wf
def scatter_S50000_S1048576x1_S1048576_n_0_0_1 : ScatterDims S50000 S1048576x1 S1048576 where
  updateWindowDims := []
  insertedWindowDims := [0]
  scatterDimsToOperandDims := [0]
  indexVectorDim := 1
  wf := scatter_S50000_S1048576x1_S1048576_n_0_0_1_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1048576x128 : Shape := ⟨2, ![1048576, 128]⟩
abbrev S1048576 : Shape := ⟨1, ![1048576]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000x128 : Shape := ⟨2, ![50000, 128]⟩
abbrev S1048576x1 : Shape := ⟨2, ![1048576, 1]⟩
abbrev S50000x1 : Shape := ⟨2, ![50000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 69
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1048576x128, .f32⟩
  | .hbm, ⟨13, _⟩ => ⟨S1x128, .f32⟩
  | .hbm, ⟨14, _⟩ => ⟨S1048576x128, .f32⟩
  | .hbm, ⟨15, _⟩ => ⟨S1048576x128, .f32⟩
  | .hbm, ⟨16, _⟩ => ⟨S_, .f32⟩
  | .hbm, ⟨17, _⟩ => ⟨S1048576x128, .f32⟩
  | .hbm, ⟨18, _⟩ => ⟨S1048576x128, .f32⟩
  | .hbm, ⟨19, _⟩ => ⟨S128x128, .f32⟩
  | .hbm, ⟨20, _⟩ => ⟨S1048576x128, .f32⟩
  | .hbm, ⟨21, _⟩ => ⟨S1x128, .f32⟩
  | .hbm, ⟨22, _⟩ => ⟨S1048576x128, .f32⟩
  | .hbm, ⟨23, _⟩ => ⟨S1048576x128, .f32⟩
  | .hbm, ⟨24, _⟩ => ⟨S_, .f32⟩
  | .hbm, ⟨25, _⟩ => ⟨S50000x128, .f32⟩
  | .hbm, ⟨26, _⟩ => ⟨S1048576x1, .i32⟩
  | .hbm, ⟨27, _⟩ => ⟨S50000x128, .f32⟩
  | .hbm, ⟨28, _⟩ => ⟨S_, .f32⟩
  | .hbm, ⟨29, _⟩ => ⟨S1048576, .f32⟩
  | .hbm, ⟨30, _⟩ => ⟨S_, .f32⟩
  | .hbm, ⟨31, _⟩ => ⟨S50000, .f32⟩
  | .hbm, ⟨32, _⟩ => ⟨S1048576x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S2000x128, .f32⟩
  | .hbm, ⟨55, _⟩ => ⟨S50000x1, .i32⟩
  | .hbm, ⟨56, _⟩ => ⟨S2000x128, .f32⟩
  | .hbm, ⟨57, _⟩ => ⟨S_, .f32⟩
  | .hbm, ⟨58, _⟩ => ⟨S50000, .f32⟩
  | .hbm, ⟨59, _⟩ => ⟨S_, .f32⟩
  | .hbm, ⟨60, _⟩ => ⟨S2000, .f32⟩
  | .hbm, ⟨61, _⟩ => ⟨S50000x1, .i32⟩
  | .hbm, ⟨62, _⟩ => ⟨S2000, .f32⟩
  | .hbm, ⟨63, _⟩ => ⟨S_, .f32⟩
  | .hbm, ⟨64, _⟩ => ⟨S2000, .f32⟩
  | .hbm, ⟨65, _⟩ => ⟨S2000, .f32⟩
  | .hbm, ⟨66, _⟩ => ⟨S2000x1, .f32⟩
  | .hbm, ⟨67, _⟩ => ⟨S2000x128, .f32⟩
  | .hbm, ⟨68, _⟩ => ⟨S2000x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S_S50000x128 : S_.BroadcastsInDim S50000x128 (![] : Fin 0 → Fin S50000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  dot_S1048576x128_S128x128_S1048576x128_1_0_0_1_n_n_wf : DotDims.WF S1048576x128 S128x128 S1048576x128 [1] [0] [0] [1] [] []
  scatter_S50000x128_S1048576x1_S1048576x128_1_0_0_1_wf : ScatterDims.WF S50000x128 S1048576x1 S1048576x128 [1] [0] [0] 1
  scatter_S50000_S1048576x1_S1048576_n_0_0_1_wf : ScatterDims.WF S50000 S1048576x1 S1048576 [] [0] [0] 1
  dot_S50000x128_S128x128_S50000x128_1_0_0_1_n_n_wf : DotDims.WF S50000x128 S128x128 S50000x128 [1] [0] [0] [1] [] []
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def scatter_S50000x128_S1048576x1_S1048576x128_1_0_0_1 : ScatterDims S50000x128 S1048576x1 S1048576x128 where
  updateWindowDims := [1]
  insertedWindowDims := [0]
  scatterDimsToOperandDims := [0]
  indexVectorDim := 1
  wf := scatter_S50000x128_S1048576x1_S1048576x128_1_0_0_1_wf
def scatter_S50000_S1048576x1_S1048576_n_0_0_1 : ScatterDims S50000 S1048576x1 S1048576 where
  updateWindowDims := []
  insertedWindowDims := [0]
  scatterDimsToOperandDims := [0]
  indexVectorDim := 1
  wf := scatter_S50000_S1048576x1_S1048576_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf

class Facts : Prop extends Facts₀ where

variable [Facts]
-- ==== Proof.Mlp.lean ====
/-
  The two-layer perceptron both programs apply to every row of a matrix, as one function over the extended reals.

  For a row `xr` of 128 entries, weight matrices `w1`, `w2` stored [out, in] and biases `b1`, `b2`, entry `q` of the
  result is  `∑ₖ max (∑ⱼ xr j · w1 k j + b1 k) 0 · w2 q k + b2 q`.  A row of the result depends on that row of the
  input only; this is what lets a row-blocked computation, and one on a matrix padded with extra rows that are cut
  off afterwards, agree with the computation on the whole matrix.
-/
import Idealize.ShloMosaic.PureOps.Ideal.Laws
import Idealize.ShloMosaic.Lib.ValueIdx
import Idealize.ShloMosaic.Lib.Pipeline.Value

noncomputable section

open scoped BigOperators

namespace Cert.Mlp

open Idealize.ShloMosaic Idealize.ShloMosaic.ValueIdx

/-- The shape of an [A × B] matrix and of a vector of B entries. -/
abbrev Mat (A B : Nat) : Shape := ⟨2, ![A, B]⟩
abbrev Row (B : Nat) : Shape := ⟨1, ![B]⟩

/-- Entry `q` of the perceptron applied to one row. -/
def mlpRow (xr : Fin 128 → EReal) (w1 : Fin 128 → Fin 128 → EReal) (b1 : Fin 128 → EReal)
    (w2 : Fin 128 → Fin 128 → EReal) (b2 : Fin 128 → EReal) (q : Fin 128) : EReal :=
  (∑ k : Fin 128, max ((∑ j : Fin 128, xr j * w1 k j) + b1 k) 0 * w2 q k) + b2 q

/-- The perceptron applied to every row of an [A × 128] matrix, the weights [128 × 128] and the biases [128] given as
    arrays: entry (r, q) is `mlpRow` of row r at q. -/
def mlpArr {A : Nat} (X : (Mat A 128).Idx → EReal) (W1 : (Mat 128 128).Idx → EReal) (B1 : (Row 128).Idx → EReal)
    (W2 : (Mat 128 128).Idx → EReal) (B2 : (Row 128).Idx → EReal) : (Mat A 128).Idx → EReal :=
  fun i => mlpRow (fun j => X (ix2 (⟨(i 0).val, idx2_lt0 i⟩ : Fin A) j)) (fun k j => W1 (ix2 k j)) (fun k => B1 (ix1 k))
    (fun k j => W2 (ix2 k j)) (fun k => B2 (ix1 k)) ⟨(i 1).val, idx2_lt1 i⟩

theorem mlpArr_apply {A : Nat} (X : (Mat A 128).Idx → EReal) (W1 : (Mat 128 128).Idx → EReal) (B1 : (Row 128).Idx → EReal)
    (W2 : (Mat 128 128).Idx → EReal) (B2 : (Row 128).Idx → EReal) (p : Fin A) (q : Fin 128) :
    mlpArr X W1 B1 W2 B2 (ix2 p q)
      = mlpRow (fun j => X (ix2 p j)) (fun k j => W1 (ix2 k j)) (fun k => B1 (ix1 k)) (fun k j => W2 (ix2 k j)) (fun k => B2 (ix1 k)) q := rfl

/-- A row of the result is determined by the same row of the input. -/
theorem mlpRow_congr {xr xr' : Fin 128 → EReal} (h : ∀ j, xr j = xr' j) (w1 : Fin 128 → Fin 128 → EReal) (b1 : Fin 128 → EReal)
    (w2 : Fin 128 → Fin 128 → EReal) (b2 : Fin 128 → EReal) (q : Fin 128) :
    mlpRow xr w1 b1 w2 b2 q = mlpRow xr' w1 b1 w2 b2 q := by
  rw [show xr = xr' from funext h]

end Cert.Mlp

end
-- ==== Proof.Chain.lean ====
/-
  The segment mean both programs apply, unchanged, to the perceptron's output: the rows of a matrix `y` summed into the
  segments an integer vector `idx` names (a scatter-add into zeros), divided row by row by the number of rows that fell
  into the segment, or by one where none did. It is carried as one function of `y` and `idx`; nothing in the certificate
  opens it, because both programs apply it to equal arguments.
-/
import proofs.«151538_j4363686773150_1_alg».proof.KernelIdeal
import Idealize.ShloMosaic.PureOps.Ideal

noncomputable section

namespace Cert.Chain

open Idealize.ShloMosaic Cert.KernelIdeal Cert.KernelIdeal.Facts₀ Cert.KernelIdeal.Facts

variable [Cert.KernelIdeal.Facts]

/-- Mean over the 50000 first-level segments of the 1048576 rows of `y`. -/
def mean1 (y : FVec Ideal S1048576x128 .f32) (idx : IVec S1048576 32) : FVec Ideal S50000x128 .f32 :=
  Host.divf
    (Host.scatterAdd scatter_S50000x128_S1048576x1_S1048576x128_1_0_0_1
      (broadcastInDim S50000x128 ![] bcast_S_S50000x128 (constant (F := Ideal) S_ .f32 0x00000000#32))
      (broadcastInDim S1048576x1 ![0] bcast_S1048576_S1048576x1_0 idx) y)
    (broadcastInDim S50000x128 ![0, 1] bcast_S50000x1_S50000x128_0_1
      (broadcastInDim S50000x1 ![0] bcast_S50000_S50000x1_0
        (maximumf
          (Host.scatterAdd scatter_S50000_S1048576x1_S1048576_n_0_0_1
            (broadcastInDim S50000 ![] bcast_S_S50000 (constant (F := Ideal) S_ .f32 0x00000000#32))
            (broadcastInDim S1048576x1 ![0] bcast_S1048576_S1048576x1_0 idx)
            (broadcastInDim S1048576 ![] bcast_S_S1048576 (constant (F := Ideal) S_ .f32 0x3F800000#32)))
          (broadcastInDim S50000 ![] bcast_S_S50000 (constant (F := Ideal) S_ .f32 0x3F800000#32)))))

/-- Mean over the 2000 second-level segments of the 50000 rows of `y`. -/
def mean2 (y : FVec Ideal S50000x128 .f32) (idx : IVec S50000 32) : FVec Ideal S2000x128 .f32 :=
  Host.divf
    (Host.scatterAdd scatter_S2000x128_S50000x1_S50000x128_1_0_0_1
      (broadcastInDim S2000x128 ![] bcast_S_S2000x128 (constant (F := Ideal) S_ .f32 0x00000000#32))
      (broadcastInDim S50000x1 ![0] bcast_S50000_S50000x1_0 idx) y)
    (broadcastInDim S2000x128 ![0, 1] bcast_S2000x1_S2000x128_0_1
      (broadcastInDim S2000x1 ![0] bcast_S2000_S2000x1_0
        (maximumf
          (Host.scatterAdd scatter_S2000_S50000x1_S50000_n_0_0_1
            (broadcastInDim S2000 ![] bcast_S_S2000 (constant (F := Ideal) S_ .f32 0x00000000#32))
            (broadcastInDim S50000x1 ![0] bcast_S50000_S50000x1_0 idx)
            (broadcastInDim S50000 ![] bcast_S_S50000 (constant (F := Ideal) S_ .f32 0x3F800000#32)))
          (broadcastInDim S2000 ![] bcast_S_S2000 (constant (F := Ideal) S_ .f32 0x3F800000#32)))))

end Cert.Chain

end
-- ==== Proof.Results.lean ====
/-
  The two results of the program as functions of its arguments: the segment mean of the perceptron of every row of
  the input matrix, and the segment mean of the perceptron of every row of that first result.
-/
import proofs.«151538_j4363686773150_1_alg».proof.KernelIdeal
import proofs.«151538_j4363686773150_1_alg».proof.Proof.Mlp
import proofs.«151538_j4363686773150_1_alg».proof.Proof.Chain

set_option maxRecDepth 16384

noncomputable section

open scoped BigOperators

namespace Cert.KernelIdeal.Host

open Cert.KernelIdeal
open Idealize.ShloMosaic Idealize.ShloMosaic.TcCoe Idealize.SL.Sem
open Cert.Mlp

variable [Cert.KernelIdeal.Facts]
variable (m : (ℓ : Loc nD τ sig) → Buf (Elt Ideal) ℓ)

/-! ## The arguments, by what they hold -/

abbrev xIn (c : Dev nD) : Vec Ideal S1048576x128 .f32 := m ((c : Thread nD τ).loc main_arg0)
abbrev seg1 (c : Dev nD) : IVec S1048576 32 := m ((c : Thread nD τ).loc main_arg1)
abbrev seg2 (c : Dev nD) : IVec S50000 32 := m ((c : Thread nD τ).loc main_arg2)
abbrev w1In (c : Dev nD) : Vec Ideal S128x128 .f32 := m ((c : Thread nD τ).loc main_arg3)
abbrev b1In (c : Dev nD) : Vec Ideal S128 .f32 := m ((c : Thread nD τ).loc main_arg4)
abbrev w2In (c : Dev nD) : Vec Ideal S128x128 .f32 := m ((c : Thread nD τ).loc main_arg5)
abbrev b2In (c : Dev nD) : Vec Ideal S128 .f32 := m ((c : Thread nD τ).loc main_arg6)
abbrev w3In (c : Dev nD) : Vec Ideal S128x128 .f32 := m ((c : Thread nD τ).loc main_arg7)
abbrev b3In (c : Dev nD) : Vec Ideal S128 .f32 := m ((c : Thread nD τ).loc main_arg8)
abbrev w4In (c : Dev nD) : Vec Ideal S128x128 .f32 := m ((c : Thread nD τ).loc main_arg9)
abbrev b4In (c : Dev nD) : Vec Ideal S128 .f32 := m ((c : Thread nD τ).loc main_arg10)

/-- The first result: the segment mean of the first perceptron of the input matrix. -/
def cable (c : Dev nD) : Vec Ideal S50000x128 .f32 :=
  Cert.Chain.mean1 (mlpArr (xIn m c) (w1In m c) (b1In m c) (w2In m c) (b2In m c)) (seg1 m c)

/-- The second result: the segment mean of the second perceptron of the first result. -/
def trans (c : Dev nD) : Vec Ideal S2000x128 .f32 :=
  Cert.Chain.mean2 (mlpArr (cable m c) (w3In m c) (b3In m c) (w4In m c) (b4In m c)) (seg2 m c)

end Cert.KernelIdeal.Host

end
-- ==== Proof.MlpRows.lean ====
/-
  Two small facts about the perceptron of every row (`Cert.Mlp.mlpArr`).

  A bias held as a [1 × 128] array is read as a vector of 128 entries (`rowOf`). And since a row of the result
  depends on the same row of the input only, the perceptron of a matrix that agrees with `y` on the rows below `A`,
  restricted to those rows, is the perceptron of `y` (`mlpArr_of_rows`): extra rows appended to a matrix and cut off
  afterwards change nothing.
-/
import proofs.«151538_j4363686773150_1_alg».proof.Proof.Mlp

noncomputable section

open scoped BigOperators

namespace Cert.Mlp

open Idealize.ShloMosaic Idealize.ShloMosaic.ValueIdx

/-- A [1 × 128] array read as a vector of 128 entries. -/
def rowOf (b : (Mat 1 128).Idx → EReal) : (Row 128).Idx → EReal :=
  fun i => b (ix2 (0 : Fin 1) (⟨(i 0).val, (i 0).isLt⟩ : Fin 128))

theorem rowOf_ix1 (b : (Mat 1 128).Idx → EReal) (k : Fin 128) : rowOf b (ix1 k) = b (ix2 (0 : Fin 1) k) := rfl

/-- If `Z`, of `A'` rows, agrees with `Y`, of `A` rows, on row `r`, then row `r` of the perceptron of `Z` is row `r` of
    the perceptron of `Y`. -/
theorem mlpArr_of_rows {A A' : Nat} (Y : (Mat A 128).Idx → EReal) (Z : (Mat A' 128).Idx → EReal)
    (W1 : (Mat 128 128).Idx → EReal) (B1 : (Row 128).Idx → EReal) (W2 : (Mat 128 128).Idx → EReal) (B2 : (Row 128).Idx → EReal)
    (p : Fin A) (p' : Fin A') (h : ∀ j : Fin 128, Z (ix2 p' j) = Y (ix2 p j)) (q : Fin 128) :
    mlpArr Z W1 B1 W2 B2 (ix2 p' q) = mlpArr Y W1 B1 W2 B2 (ix2 p q) := by
  rw [mlpArr_apply, mlpArr_apply]
  exact mlpRow_congr h _ _ _ _ q

/-- The perceptron of every row of equal arguments. -/
theorem mlpArr_congr {A : Nat} {X X' : (Mat A 128).Idx → EReal} (hX : X = X')
    {W1 W1' : (Mat 128 128).Idx → EReal} (h1 : W1 = W1') {B1 B1' : (Row 128).Idx → EReal} (hb1 : B1 = B1')
    {W2 W2' : (Mat 128 128).Idx → EReal} (h2 : W2 = W2') {B2 B2' : (Row 128).Idx → EReal} (hb2 : B2 = B2') :
    mlpArr X W1 B1 W2 B2 = mlpArr X' W1' B1' W2' B2' := by
  subst hX h1 hb1 h2 hb2
  rfl

end Cert.Mlp

end
-- ==== Proof.PadSlice.lean ====
/-
  Two facts about shapes that the host operations around the regions rest on.

  A bias reshaped [128] → [1, 128] and read back as a vector of 128 entries is the bias. And since a row of the
  perceptron depends on the same row of its input only, appending 176 rows to a 50000-row matrix, taking the perceptron
  of every row and cutting the appended rows off again is the perceptron of every row of the matrix.
-/
import proofs.«151538_j4363686773150_1_alg».proof.KernelIdeal
import proofs.«151538_j4363686773150_1_alg».proof.Proof.MlpRows
import Idealize.ShloMosaic.Lib.Pipeline.Value
import Idealize.ShloMosaic.Lib.KernelVsHost

set_option maxRecDepth 16384

noncomputable section

open scoped BigOperators

namespace Cert.KernelIdeal.Host

open Cert.KernelIdeal
open Idealize.ShloMosaic Idealize.ShloMosaic.ValueIdx
open Cert.Mlp

variable [Cert.KernelIdeal.Facts]

/-! ## Two facts about shapes -/

/-- A bias reshaped [128] → [1, 128] and read back as a vector is the bias. -/
theorem rowOf_reshape (b : (Row 128).Idx → EReal) (h : (Row 128).ShapeCasts (Mat 1 128)) :
    rowOf (shapeCast (Mat 1 128) b h) = b := by
  funext i
  unfold rowOf
  refine (shapeCast_apply b h _ i ?_).trans rfl
  rw [Shape.rowMajor_val_one, Shape.rowMajor_val_two]
  show (i 0).val = 0 * 128 + (i 0).val
  omega

/-- Appending rows to a matrix, taking the perceptron of every row, and cutting the appended rows off again is the
    perceptron of every row of the matrix. -/
theorem slice_mlp_pad (R : Vec Ideal S50000x128 .f32) (z : Vec Ideal S_ .f32)
    (W1 : (Mat 128 128).Idx → EReal) (B1 : (Row 128).Idx → EReal) (W2 : (Mat 128 128).Idx → EReal) (B2 : (Row 128).Idx → EReal) :
    extractStridedSlice S50000x128 ![0, 0]
        (mlpArr (pad S50176x128 ![0, 0] ![176, 0] ![0, 0] R z Facts₀.pads_S50000x128_S50176x128_01760_000 Facts₀.h_S_) W1 B1 W2 B2)
        Facts₀.slices_S50176x128_S50000x128_0_0
      = mlpArr R W1 B1 W2 B2 := by
  funext i
  obtain ⟨p, q, rfl⟩ : ∃ (p : Fin 50000) (q : Fin 128), i = ix2 p q := ⟨i 0, i 1, eq_ix2 i⟩
  have hp : p.val < 50176 := by have := p.isLt; omega
  refine (extractStridedSlice_apply ![0, 0] _ Facts₀.slices_S50176x128_S50000x128_0_0 (ix2 p q) (ix2 (⟨p.val, hp⟩ : Fin 50176) q) (fun a => by
    match a with
    | ⟨0, _⟩ => show p.val = 0 + p.val; omega
    | ⟨1, _⟩ => show q.val = 0 + q.val; omega)).trans ?_
  refine mlpArr_of_rows R _ W1 B1 W2 B2 p ⟨p.val, hp⟩ (fun j => ?_) q
  exact pad_apply_of_inside ![0, 0] ![176, 0] ![0, 0] R z Facts₀.pads_S50000x128_S50176x128_01760_000 Facts₀.h_S_ (ix2 (⟨p.val, hp⟩ : Fin 50176) j) (ix2 p j) (fun a => by
    match a with
    | ⟨0, _⟩ => show p.val = 0 + p.val * (0 + 1); omega
    | ⟨1, _⟩ => show j.val = 0 + j.val * (0 + 1); omega)

end Cert.KernelIdeal.Host

end
-- ==== Proof.MlpAt.lean ====
/-
  The kernel body's arithmetic read at one entry.

  The body computes, on an [A × 128] block `x` with weights `w1`, `w2` stored [out, in] and biases held as [1 × 128]
  rows: two matrix products into zero accumulators, each contracting the second axis of both operands (so the right
  operand is read at (column, k)), a bias added to every row, and a maximum with zero in between. Entry (p, q) of
  the result is the perceptron of row p of the block at q. The changes of float format in between are the identity on
  extended reals.
-/
import proofs.«151538_j4363686773150_1_alg».proof.Proof.Mlp

noncomputable section

open scoped BigOperators

namespace Cert.Mlp

open Idealize.ShloMosaic Idealize.ShloMosaic.ValueIdx

/-- A matrix product into a zero accumulator, for dimension numbers that contract the second axis of both operands,
    read at entry (a, b): the sum over k of the left operand at (a, k) times the right operand at (b, k). The one
    contracted axis has extent 128, so the contraction index is re-indexed by its single coordinate. -/
private theorem matmul_zero_at {A : Nat} (D : DotDims (Mat A 128) (Mat 128 128) (Mat A 128))
    (hr : D.contr.rank = 1) (hs : D.contr.size ⟨0, by omega⟩ = 128)
    (hl0 : ∀ (i : (Mat A 128).Idx) (k : D.contr.Idx), (D.lhsIdx i k 0).val = (i 0).val)
    (hl1 : ∀ (i : (Mat A 128).Idx) (k : D.contr.Idx), (D.lhsIdx i k 1).val = (k ⟨0, by omega⟩).val)
    (hr0 : ∀ (i : (Mat A 128).Idx) (k : D.contr.Idx), (D.rhsIdx i k 0).val = (i 1).val)
    (hr1 : ∀ (i : (Mat A 128).Idx) (k : D.contr.Idx), (D.rhsIdx i k 1).val = (k ⟨0, by omega⟩).val)
    {φ₁ φ₂ : FTy} (l : FVec Ideal (Mat A 128) φ₁) (r : FVec Ideal (Mat 128 128) φ₂) (a : Fin A) (b : Fin 128) :
    matmul D none l r (constant (F := Ideal) (Mat A 128) .f32 0x00000000#32) (ix2 a b)
      = ∑ k : Fin 128, l (ix2 a k) * r (ix2 b k) := by
  simp only [matmul]
  rw [Ideal.matmul_constant_zero_apply, ← Equiv.sum_comp (contrEquiv1 D 128 hr hs).symm]
  refine Finset.sum_congr rfl fun k _ => ?_
  have hk := contrEquiv1_symm_val D 128 hr hs k
  -- the left operand is read at (a, k) and the right operand at (b, k)
  have hL : D.lhsIdx (ix2 a b) ((contrEquiv1 D 128 hr hs).symm k) = ix2 a k :=
    funext fun c => Fin.ext (by match c with | ⟨0, _⟩ => exact hl0 _ _ | ⟨1, _⟩ => exact (hl1 _ _).trans hk)
  have hR : D.rhsIdx (ix2 a b) ((contrEquiv1 D 128 hr hs).symm k) = ix2 b k :=
    funext fun c => Fin.ext (by match c with | ⟨0, _⟩ => exact hr0 _ _ | ⟨1, _⟩ => exact (hr1 _ _).trans hk)
  rw [hL, hR]

/-- A bias held as a [1 × 128] row, cast to its own shape and broadcast to every row of an [A × 128] block, read at
    entry (a, k): the bias at (0, k). The row axis of the operand has extent 1, so it is read at 0; the column axis has
    extent 128, so it is read at the entry's column. -/
private theorem bias_at {A : Nat} (hsc : (Mat 1 128).ShapeCasts (Mat 1 128)) (hbc : (Mat 1 128).Broadcasts (Mat A 128))
    (v : FVec Ideal (Mat 1 128) .f32) (a : Fin A) (k : Fin 128) :
    broadcastTo (Mat A 128) (shapeCast (Mat 1 128) v hsc) hbc (ix2 a k) = v (ix2 (0 : Fin 1) k) := by
  rw [shapeCast_self]
  exact broadcastTo_apply v hbc (ix2 a k) (ix2 (0 : Fin 1) k) (fun c => by
    match c with
    | ⟨0, _⟩ => exact (if_pos rfl).symm
    | ⟨1, _⟩ => exact (if_neg (show ¬ ((128 : ℕ) = 1) by decide)).symm)

/-- Entry (p, q) of the body's result on a block is `mlpRow` of the block's row p, for dimension numbers `D` whose one
    contracted axis has extent 128 (`hr`, `hs`), which read the left operand at (row, k) (`hl0`, `hl1`) and the
    right operand at (column, k) (`hr0`, `hr1`). -/
theorem payload_at {A : Nat} (D : DotDims (Mat A 128) (Mat 128 128) (Mat A 128))
    (hr : D.contr.rank = 1) (hs : D.contr.size ⟨0, by omega⟩ = 128)
    (hl0 : ∀ (i : (Mat A 128).Idx) (k : D.contr.Idx), (D.lhsIdx i k 0).val = (i 0).val)
    (hl1 : ∀ (i : (Mat A 128).Idx) (k : D.contr.Idx), (D.lhsIdx i k 1).val = (k ⟨0, by omega⟩).val)
    (hr0 : ∀ (i : (Mat A 128).Idx) (k : D.contr.Idx), (D.rhsIdx i k 0).val = (i 1).val)
    (hr1 : ∀ (i : (Mat A 128).Idx) (k : D.contr.Idx), (D.rhsIdx i k 1).val = (k ⟨0, by omega⟩).val)
    (hsc : (Mat 1 128).ShapeCasts (Mat 1 128)) (hbc : (Mat 1 128).Broadcasts (Mat A 128)) (hlt : FTy.bits .bf16 < FTy.bits .f32)
    (x : FVec Ideal (Mat A 128) .f32) (w1 : FVec Ideal (Mat 128 128) .f32) (b1r : FVec Ideal (Mat 1 128) .f32)
    (w2 : FVec Ideal (Mat 128 128) .f32) (b2r : FVec Ideal (Mat 1 128) .f32) (p : Fin A) (q : Fin 128) :
    addf (matmul D none (truncf .bf16 (maximumf (addf (matmul D none (truncf .bf16 x hlt) (truncf .bf16 w1 hlt) (constant (F := Ideal) (Mat A 128) .f32 0x00000000#32))
            (broadcastTo (Mat A 128) (shapeCast (Mat 1 128) b1r hsc) hbc)) (broadcast (Mat A 128) (Scalar.ofBits (F := Ideal) .f32 0x00000000#32))) hlt)
          (truncf .bf16 w2 hlt) (constant (F := Ideal) (Mat A 128) .f32 0x00000000#32))
        (broadcastTo (Mat A 128) (shapeCast (Mat 1 128) b2r hsc) hbc) (ix2 p q)
      = mlpRow (fun j => x (ix2 p j)) (fun k j => w1 (ix2 k j)) (fun k => b1r (ix2 (0 : Fin 1) k))
          (fun k j => w2 (ix2 k j)) (fun k => b2r (ix2 (0 : Fin 1) k)) q := by
  -- the zero the maximum is taken with
  have hz : Scalar.ofBits (F := Ideal) .f32 0x00000000#32 = (0 : EReal) := Ideal.ofBits_zero_f32
  -- the outer product and the second bias at (p, q)
  rw [addf_apply, matmul_zero_at D hr hs hl0 hl1 hr0 hr1, bias_at hsc hbc]
  unfold mlpRow
  congr 1
  refine Finset.sum_congr rfl fun k _ => ?_
  -- under the sum: the changes of format are the identity, and the inner product and the first bias at (p, k)
  rw [truncf_apply, truncf_apply, maximumf_apply, addf_apply, matmul_zero_at D hr hs hl0 hl1 hr0 hr1, bias_at hsc hbc,
    broadcast_apply, hz]
  rfl

end Cert.Mlp

end
-- ==== Proof.Blocks0.lean ====
/-
  Region 0: the first perceptron, computed block by block.

  The grid has 128 points; point t stages rows 8192·t … 8192·t + 8191 of the input matrix (1048576 × 128), the two
  weight matrices and the two biases whole, and writes rows 8192·t … 8192·t + 8191 of the output. Entry (p, q) of what
  a point writes is the perceptron of row p of its input block at q, that is of row 8192·t + p of the input matrix. The
  128 output blocks tile the output, so after the region the output array is the perceptron of every row of the input.
-/
import proofs.«151538_j4363686773150_1_alg».proof.Proof.Gen.KernelIdeal.Frame
import proofs.«151538_j4363686773150_1_alg».proof.Proof.MlpAt
import proofs.«151538_j4363686773150_1_alg».proof.Proof.MlpRows
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)
open Cert.Mlp

/-! ## Where the matrix products read their operands -/

abbrev D0 := dot_S8192x128_S128x128_S8192x128_1_1_0_0_n_n

theorem lhs0 (i : S8192x128.Idx) (k : D0.contr.Idx) : (D0.lhsIdx i k 0).val = (i 0).val := by
  unfold DotDims.lhsIdx
  rw [dif_neg (show ¬(0 : Fin S8192x128.rank) ∈ D0.lhsBatch by decide), dif_pos (show (0 : Fin S8192x128.rank) ∈ D0.lhsNonContracting by decide)]
  rfl
theorem lhs1 (i : S8192x128.Idx) (k : D0.contr.Idx) : (D0.lhsIdx i k 1).val = (k ⟨0, by decide⟩).val :=
  D0.lhsIdx_val_of_single rfl i k
theorem rhs0 (i : S8192x128.Idx) (k : D0.contr.Idx) : (D0.rhsIdx i k 0).val = (i 1).val := by
  unfold DotDims.rhsIdx
  rw [dif_neg (show ¬(0 : Fin S128x128.rank) ∈ D0.rhsBatch by decide), dif_pos (show (0 : Fin S128x128.rank) ∈ D0.rhsNonContracting by decide)]
  rfl
theorem rhs1 (i : S8192x128.Idx) (k : D0.contr.Idx) : (D0.rhsIdx i k 1).val = (k ⟨0, by decide⟩).val :=
  D0.rhsIdx_val_of_single rfl i k

/-- The body's arithmetic at entry (p, q) of a block: the perceptron of the block's row p. -/
theorem pay_at (x0 : Vec Ideal S8192x128 .f32) (x1 : Vec Ideal S128x128 .f32) (x2 : Vec Ideal S1x128 .f32)
    (x3 : Vec Ideal S128x128 .f32) (x4 : Vec Ideal S1x128 .f32) (p : Fin 8192) (q : Fin 128) :
    k0_pay1 (F := Ideal) x0 x1 x2 x3 x4 (ix2 p q)
      = mlpRow (fun j => x0 (ix2 p j)) (fun k j => x1 (ix2 k j)) (fun k => x2 (ix2 (0 : Fin 1) k))
          (fun k j => x3 (ix2 k j)) (fun k => x4 (ix2 (0 : Fin 1) k)) q := by
  unfold k0_pay1
  exact payload_at D0 rfl rfl lhs0 lhs1 rhs0 rhs1 _ _ _ x0 x1 x2 x3 x4 p q

/-! ## The index maps over the grid -/

theorem hz : (![0, 0] : Fin 2 → Nat) = fun _ => 0 := funext fun a => by fin_cases a <;> rfl

/-- The input block and the output block of point t start at row 8192·t; the weights' and the biases' blocks are the
    whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The arrays the region finds, by what they hold. -/
abbrev xArr (c : Dev nD) : Vec Ideal S1048576x128 .f32 := V c main_arg0
abbrev w1Arr (c : Dev nD) : Vec Ideal S128x128 .f32 := V c main_arg3
abbrev b1Arr (c : Dev nD) : Vec Ideal S1x128 .f32 := V c main_v0
abbrev w2Arr (c : Dev nD) : Vec Ideal S128x128 .f32 := V c main_arg5
abbrev b2Arr (c : Dev nD) : Vec Ideal S1x128 .f32 := V c main_v1

/-- What the output array ends holding: the perceptron of every row of the input matrix. -/
def G (c : Dev nD) : Vec Ideal S1048576x128 .f32 :=
  mlpArr (xArr V c) (w1Arr V c) (rowOf (b1Arr V c)) (w2Arr V c) (rowOf (b2Arr V c))

/-- The grid has 128 points. -/
theorem t_lt (t : Fin cfg0.N) : t.val < 128 := lt_of_lt_of_eq t.isLt N_0

/-- Row p of point t's input block is row 8192·t + p of the input matrix. -/
theorem x_blk (c : Dev nD) (t : Fin cfg0.N) (p : Fin 8192) (j : Fin 128) (hp : t.val * 8192 + p.val < 1048576) :
    iblk0 V c 0 t (ix2 p j) = xArr V c (ix2 (⟨t.val * 8192 + p.val, hp⟩ : Fin 1048576) j) := by
  obtain ⟨e00, e01, -⟩ := idx_facts t
  show V c main_arg0 (((cfg0.win 0).blk t).view.emb (ix2 p j)) = V c main_arg0 _
  refine congrArg (V c main_arg0) (funext fun a => Fin.ext ?_)
  match a with
  | ⟨0, _⟩ => show win0_0.index t (0 : Fin 2) * 8192 + 1 * p.val = t.val * 8192 + p.val; omega
  | ⟨1, _⟩ => show win0_0.index t (1 : Fin 2) * 128 + 1 * j.val = j.val; omega

/-- The weights' and the biases' blocks are the arrays themselves. -/
theorem w1_blk (c : Dev nD) (t : Fin cfg0.N) (k j : Fin 128) : iblk0 V c 1 t (ix2 k j) = w1Arr V c (ix2 k j) := by
  obtain ⟨-, -, e10, e11, -⟩ := idx_facts t
  show V c main_arg3 (((cfg0.win 1).blk t).view.emb (ix2 k j)) = V c main_arg3 _
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega
theorem b1_blk (c : Dev nD) (t : Fin cfg0.N) (k : Fin 128) : iblk0 V c 2 t (ix2 (0 : Fin 1) k) = b1Arr V c (ix2 (0 : Fin 1) k) := by
  obtain ⟨-, -, -, -, e20, e21, -⟩ := idx_facts t
  show V c main_v0 (((cfg0.win 2).blk t).view.emb (ix2 (0 : Fin 1) k)) = V c main_v0 _
  refine congrArg (V c main_v0) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega
theorem w2_blk (c : Dev nD) (t : Fin cfg0.N) (k j : Fin 128) : iblk0 V c 3 t (ix2 k j) = w2Arr V c (ix2 k j) := by
  obtain ⟨-, -, -, -, -, -, e30, e31, -⟩ := idx_facts t
  show V c main_arg5 (((cfg0.win 3).blk t).view.emb (ix2 k j)) = V c main_arg5 _
  refine congrArg (V c main_arg5) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega
theorem b2_blk (c : Dev nD) (t : Fin cfg0.N) (k : Fin 128) : iblk0 V c 4 t (ix2 (0 : Fin 1) k) = b2Arr V c (ix2 (0 : Fin 1) k) := by
  obtain ⟨-, -, -, -, -, -, -, -, e40, e41, -⟩ := idx_facts t
  show V c main_v1 (((cfg0.win 4).blk t).view.emb (ix2 (0 : Fin 1) k)) = V c main_v1 _
  refine congrArg (V c main_v1) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

/-- Entry (p, q) of point t's output block lies at (8192·t + p, q) of the output array. -/
theorem out_emb (t : Fin cfg0.N) (p : Fin 8192) (q : Fin 128) (hp : t.val * 8192 + p.val < 1048576) :
    ((cfg0.win 5).blk t).view.emb (ix2 p q) = ix2 (⟨t.val * 8192 + p.val, hp⟩ : Fin 1048576) q := by
  obtain ⟨-, -, -, -, -, -, -, -, -, -, e50, e51⟩ := idx_facts t
  refine funext fun a => Fin.ext ?_
  match a with
  | ⟨0, _⟩ => show win0_5.index t (0 : Fin 2) * 8192 + 1 * p.val = t.val * 8192 + p.val; omega
  | ⟨1, _⟩ => show win0_5.index t (1 : Fin 2) * 128 + 1 * q.val = q.val; omega

/-- WHAT POINT t WRITES BACK is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S8192x128) hz, View.ld_unit_zero (S := S128x128) hz, View.ld_unit_zero (S := S1x128) hz]
  funext j
  obtain ⟨p, q, rfl⟩ : ∃ (p : Fin 8192) (q : Fin 128), j = ix2 p q := ⟨j 0, j 1, eq_ix2 j⟩
  have hp : t.val * 8192 + p.val < 1048576 := by have := t_lt t; have := p.isLt; omega
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [out_emb t p q hp]
  refine (pay_at (iblk0 V c 0 t) (iblk0 V c 1 t) (iblk0 V c 2 t) (iblk0 V c 3 t) (iblk0 V c 4 t) p q).trans ?_
  unfold G
  rw [mlpArr_apply]
  simp only [x_blk V c t p _ hp, w1_blk V c t, b1_blk V c t, w2_blk V c t, b2_blk V c t, rowOf_ix1]

/-! ## The output blocks tile the output array -/

/-- An index of the output array is in point t's block iff its row is in the block's range of rows. -/
theorem mem_blk (t : Fin cfg0.N) (i : S1048576x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v2).slice (win0_5.rect t)).set ↔ _
  rw [View.set_slice_whole, Rect.mem_set_unit]
  exact Iff.rfl

/-- Every index of the output array is in the block of the point its row falls to. -/
theorem cover (i : S1048576x128.Idx) :
    ∃ t : Fin cfg0.N, (cfg0.win 5).flush t = true ∧ i ∈ ((cfg0.win 5).blk t).view.set := by
  have hi0 : (i 0).val < 1048576 := (i 0).isLt
  have hi1 : (i 1).val < 128 := (i 1).isLt
  have hN : (i 0).val / 8192 < cfg0.N := lt_of_lt_of_eq (show (i 0).val / 8192 < 128 by omega) N_0.symm
  refine ⟨⟨(i 0).val / 8192, hN⟩, flush0_5 _, ?_⟩
  obtain ⟨-, -, -, -, -, -, -, -, -, -, e50, e51⟩ := idx_facts ⟨(i 0).val / 8192, hN⟩
  rw [mem_blk]
  intro a
  match a with
  | ⟨0, _⟩ =>
    show win0_5.index ⟨(i 0).val / 8192, hN⟩ (0 : Fin 2) * 8192 ≤ (i 0).val ∧ (i 0).val < win0_5.index ⟨(i 0).val / 8192, hN⟩ (0 : Fin 2) * 8192 + 8192
    rw [e50]; show (i 0).val / 8192 * 8192 ≤ (i 0).val ∧ (i 0).val < (i 0).val / 8192 * 8192 + 8192; omega
  | ⟨1, _⟩ =>
    show win0_5.index ⟨(i 0).val / 8192, hN⟩ (1 : Fin 2) * 128 ≤ (i 1).val ∧ (i 1).val < win0_5.index ⟨(i 0).val / 8192, hN⟩ (1 : Fin 2) * 128 + 128
    rw [e51]; omega

/-- THE OUTPUT ARRAY AFTER THE REGION is the perceptron of every row of the input matrix as the region found it. -/
theorem final (c : Dev nD) : (dat0 V c).arrAt 5 cfg0.N = G V c :=
  (dat0 V c).arrAt_eq_of_cover 5 (G V c) (fun t _ => flushed_eq V c t) cover

end Cert.KernelIdeal.Blocks0

end
-- ==== Proof.HostEntry.lean ====
/-
  Up to region 0's exit. Before the region the two biases are reshaped [128] → [1, 128] and nothing else is
  written, so the region finds the arguments as launched; it leaves the perceptron of every row of the input matrix in
  its output array and writes no other buffer.
-/
import proofs.«151538_j4363686773150_1_alg».proof.Proof.Gen.KernelIdeal.Frame
import proofs.«151538_j4363686773150_1_alg».proof.Proof.Results
import proofs.«151538_j4363686773150_1_alg».proof.Proof.PadSlice
import proofs.«151538_j4363686773150_1_alg».proof.Proof.Blocks0
import Idealize.ShloMosaic.Lib.StableHlo.Run

set_option maxRecDepth 16384

noncomputable section

open scoped BigOperators

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx
open Cert.Mlp

variable (m : (ℓ : Loc nD τ sig) → Buf (Elt Ideal) ℓ) (ρ : Dev nD → PrngReg)

/-! ## Region 0's entry: the arguments as launched, the two biases reshaped -/

theorem V1_x (c : Dev nD) : V1 m ρ c main_arg0 = xIn m c := by
  show StableHlo.after hostOps0 (W0 m ρ c) (Proc.devRef .tc main_arg0) = _
  after_results
theorem V1_w1 (c : Dev nD) : V1 m ρ c main_arg3 = w1In m c := by
  show StableHlo.after hostOps0 (W0 m ρ c) (Proc.devRef .tc main_arg3) = _
  after_results
theorem V1_w2 (c : Dev nD) : V1 m ρ c main_arg5 = w2In m c := by
  show StableHlo.after hostOps0 (W0 m ρ c) (Proc.devRef .tc main_arg5) = _
  after_results
theorem V1_b1 (c : Dev nD) : V1 m ρ c main_v0 = shapeCast S1x128 (b1In m c) Facts₀.shapeCasts_S128_S1x128 := by
  show StableHlo.after hostOps0 (W0 m ρ c) (Proc.devRef .tc main_v0) = _
  after_results
  rfl
theorem V1_b2 (c : Dev nD) : V1 m ρ c main_v1 = shapeCast S1x128 (b2In m c) Facts₀.shapeCasts_S128_S1x128 := by
  show StableHlo.after hostOps0 (W0 m ρ c) (Proc.devRef .tc main_v1) = _
  after_results
  rfl

/-! ## Region 0's exit -/

/-- Region 0 leaves the first perceptron of the input matrix in its output array. -/
theorem W2_out (c : Dev nD) :
    W2 m ρ c (Proc.devRef .tc main_v2) = mlpArr (xIn m c) (w1In m c) (b1In m c) (w2In m c) (b2In m c) := by
  refine (W2_arr m ρ c 5).trans ((Blocks0.final (V1 m ρ) c).trans ?_)
  show mlpArr (V1 m ρ c main_arg0) (V1 m ρ c main_arg3) (rowOf (V1 m ρ c main_v0)) (V1 m ρ c main_arg5) (rowOf (V1 m ρ c main_v1)) = _
  rw [V1_x, V1_w1, V1_w2, V1_b1, V1_b2, rowOf_reshape, rowOf_reshape]

/-- The other arguments are still as launched at region 0's exit: the region writes none of them, nor do the reshapes
    before it. -/
theorem W2_seg1 (c : Dev nD) : W2 m ρ c (Proc.devRef .tc main_arg1) = seg1 m c := by
  refine (W2_of_ne m ρ c main_arg1 (by decide)).trans ?_
  show StableHlo.after hostOps0 (W0 m ρ c) (Proc.devRef .tc main_arg1) = _
  after_results
theorem W2_seg2 (c : Dev nD) : W2 m ρ c (Proc.devRef .tc main_arg2) = seg2 m c := by
  refine (W2_of_ne m ρ c main_arg2 (by decide)).trans ?_
  show StableHlo.after hostOps0 (W0 m ρ c) (Proc.devRef .tc main_arg2) = _
  after_results
theorem W2_w3 (c : Dev nD) : W2 m ρ c (Proc.devRef .tc main_arg7) = w3In m c := by
  refine (W2_of_ne m ρ c main_arg7 (by decide)).trans ?_
  show StableHlo.after hostOps0 (W0 m ρ c) (Proc.devRef .tc main_arg7) = _
  after_results
theorem W2_b3 (c : Dev nD) : W2 m ρ c (Proc.devRef .tc main_arg8) = b3In m c := by
  refine (W2_of_ne m ρ c main_arg8 (by decide)).trans ?_
  show StableHlo.after hostOps0 (W0 m ρ c) (Proc.devRef .tc main_arg8) = _
  after_results
theorem W2_w4 (c : Dev nD) : W2 m ρ c (Proc.devRef .tc main_arg9) = w4In m c := by
  refine (W2_of_ne m ρ c main_arg9 (by decide)).trans ?_
  show StableHlo.after hostOps0 (W0 m ρ c) (Proc.devRef .tc main_arg9) = _
  after_results
theorem W2_b4 (c : Dev nD) : W2 m ρ c (Proc.devRef .tc main_arg10) = b4In m c := by
  refine (W2_of_ne m ρ c main_arg10 (by decide)).trans ?_
  show StableHlo.after hostOps0 (W0 m ρ c) (Proc.devRef .tc main_arg10) = _
  after_results

end Cert.KernelIdeal.Host

end
-- ==== Proof.Blocks1.lean ====
/-
  Region 1: the second perceptron, computed block by block on the padded matrix.

  The grid has 98 points; point t stages rows 512·t … 512·t + 511 of the input matrix (50176 × 128: the first result
  with 176 rows appended), the two weight matrices and the two biases whole, and writes rows 512·t … 512·t + 511 of the
  output. Entry (p, q) of what a point writes is the perceptron of row p of its input block at q, that is of row
  512·t + p of the input matrix. The 98 output blocks tile the output, so after the region the output array is the
  perceptron of every row of the input.
-/
import proofs.«151538_j4363686773150_1_alg».proof.Proof.Gen.KernelIdeal.Frame
import proofs.«151538_j4363686773150_1_alg».proof.Proof.MlpAt
import proofs.«151538_j4363686773150_1_alg».proof.Proof.MlpRows
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)
open Cert.Mlp

/-! ## Where the matrix products read their operands -/

abbrev D1 := dot_S512x128_S128x128_S512x128_1_1_0_0_n_n

theorem lhs0 (i : S512x128.Idx) (k : D1.contr.Idx) : (D1.lhsIdx i k 0).val = (i 0).val := by
  unfold DotDims.lhsIdx
  rw [dif_neg (show ¬(0 : Fin S512x128.rank) ∈ D1.lhsBatch by decide), dif_pos (show (0 : Fin S512x128.rank) ∈ D1.lhsNonContracting by decide)]
  rfl
theorem lhs1 (i : S512x128.Idx) (k : D1.contr.Idx) : (D1.lhsIdx i k 1).val = (k ⟨0, by decide⟩).val :=
  D1.lhsIdx_val_of_single rfl i k
theorem rhs0 (i : S512x128.Idx) (k : D1.contr.Idx) : (D1.rhsIdx i k 0).val = (i 1).val := by
  unfold DotDims.rhsIdx
  rw [dif_neg (show ¬(0 : Fin S128x128.rank) ∈ D1.rhsBatch by decide), dif_pos (show (0 : Fin S128x128.rank) ∈ D1.rhsNonContracting by decide)]
  rfl
theorem rhs1 (i : S512x128.Idx) (k : D1.contr.Idx) : (D1.rhsIdx i k 1).val = (k ⟨0, by decide⟩).val :=
  D1.rhsIdx_val_of_single rfl i k

/-- The body's arithmetic at entry (p, q) of a block: the perceptron of the block's row p. -/
theorem pay_at (x0 : Vec Ideal S512x128 .f32) (x1 : Vec Ideal S128x128 .f32) (x2 : Vec Ideal S1x128 .f32)
    (x3 : Vec Ideal S128x128 .f32) (x4 : Vec Ideal S1x128 .f32) (p : Fin 512) (q : Fin 128) :
    k1_pay1 (F := Ideal) x0 x1 x2 x3 x4 (ix2 p q)
      = mlpRow (fun j => x0 (ix2 p j)) (fun k j => x1 (ix2 k j)) (fun k => x2 (ix2 (0 : Fin 1) k))
          (fun k j => x3 (ix2 k j)) (fun k => x4 (ix2 (0 : Fin 1) k)) q := by
  unfold k1_pay1
  -- the input block is first cast to its own shape, which changes nothing
  rw [shapeCast_self x0 _]
  exact payload_at D1 rfl rfl lhs0 lhs1 rhs0 rhs1 _ _ _ x0 x1 x2 x3 x4 p q

/-! ## The index maps over the grid -/

theorem hz : (![0, 0] : Fin 2 → Nat) = fun _ => 0 := funext fun a => by fin_cases a <;> rfl

/-- The input block and the output block of point t start at row 512·t; the weights' and the biases' blocks are the
    whole arrays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The arrays the region finds, by what they hold. -/
abbrev xArr (c : Dev nD) : Vec Ideal S50176x128 .f32 := V c main_v15
abbrev w1Arr (c : Dev nD) : Vec Ideal S128x128 .f32 := V c main_arg7
abbrev b1Arr (c : Dev nD) : Vec Ideal S1x128 .f32 := V c main_v16
abbrev w2Arr (c : Dev nD) : Vec Ideal S128x128 .f32 := V c main_arg9
abbrev b2Arr (c : Dev nD) : Vec Ideal S1x128 .f32 := V c main_v17

/-- What the output array ends holding: the perceptron of every row of the input matrix. -/
def G (c : Dev nD) : Vec Ideal S50176x128 .f32 :=
  mlpArr (xArr V c) (w1Arr V c) (rowOf (b1Arr V c)) (w2Arr V c) (rowOf (b2Arr V c))

/-- The grid has 98 points. -/
theorem t_lt (t : Fin cfg1.N) : t.val < 98 := lt_of_lt_of_eq t.isLt N_1

/-- Row p of point t's input block is row 512·t + p of the input matrix. -/
theorem x_blk (c : Dev nD) (t : Fin cfg1.N) (p : Fin 512) (j : Fin 128) (hp : t.val * 512 + p.val < 50176) :
    iblk1 V c 0 t (ix2 p j) = xArr V c (ix2 (⟨t.val * 512 + p.val, hp⟩ : Fin 50176) j) := by
  obtain ⟨e00, e01, -⟩ := idx_facts t
  show V c main_v15 (((cfg1.win 0).blk t).view.emb (ix2 p j)) = V c main_v15 _
  refine congrArg (V c main_v15) (funext fun a => Fin.ext ?_)
  match a with
  | ⟨0, _⟩ => show win1_0.index t (0 : Fin 2) * 512 + 1 * p.val = t.val * 512 + p.val; omega
  | ⟨1, _⟩ => show win1_0.index t (1 : Fin 2) * 128 + 1 * j.val = j.val; omega

/-- The weights' and the biases' blocks are the arrays themselves. -/
theorem w1_blk (c : Dev nD) (t : Fin cfg1.N) (k j : Fin 128) : iblk1 V c 1 t (ix2 k j) = w1Arr V c (ix2 k j) := by
  obtain ⟨-, -, e10, e11, -⟩ := idx_facts t
  show V c main_arg7 (((cfg1.win 1).blk t).view.emb (ix2 k j)) = V c main_arg7 _
  refine congrArg (V c main_arg7) (funext fun a => Fin.ext ?_)
  match a with
  | ⟨0, _⟩ => show win1_1.index t (0 : Fin 2) * 128 + 1 * k.val = k.val; omega
  | ⟨1, _⟩ => show win1_1.index t (1 : Fin 2) * 128 + 1 * j.val = j.val; omega
theorem b1_blk (c : Dev nD) (t : Fin cfg1.N) (k : Fin 128) : iblk1 V c 2 t (ix2 (0 : Fin 1) k) = b1Arr V c (ix2 (0 : Fin 1) k) := by
  obtain ⟨-, -, -, -, e20, e21, -⟩ := idx_facts t
  show V c main_v16 (((cfg1.win 2).blk t).view.emb (ix2 (0 : Fin 1) k)) = V c main_v16 _
  refine congrArg (V c main_v16) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega
theorem w2_blk (c : Dev nD) (t : Fin cfg1.N) (k j : Fin 128) : iblk1 V c 3 t (ix2 k j) = w2Arr V c (ix2 k j) := by
  obtain ⟨-, -, -, -, -, -, e30, e31, -⟩ := idx_facts t
  show V c main_arg9 (((cfg1.win 3).blk t).view.emb (ix2 k j)) = V c main_arg9 _
  refine congrArg (V c main_arg9) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega
theorem b2_blk (c : Dev nD) (t : Fin cfg1.N) (k : Fin 128) : iblk1 V c 4 t (ix2 (0 : Fin 1) k) = b2Arr V c (ix2 (0 : Fin 1) k) := by
  obtain ⟨-, -, -, -, -, -, -, -, e40, e41, -⟩ := idx_facts t
  show V c main_v17 (((cfg1.win 4).blk t).view.emb (ix2 (0 : Fin 1) k)) = V c main_v17 _
  refine congrArg (V c main_v17) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- Entry (p, q) of point t's output block lies at (512·t + p, q) of the output array. -/
theorem out_emb (t : Fin cfg1.N) (p : Fin 512) (q : Fin 128) (hp : t.val * 512 + p.val < 50176) :
    ((cfg1.win 5).blk t).view.emb (ix2 p q) = ix2 (⟨t.val * 512 + p.val, hp⟩ : Fin 50176) q := by
  obtain ⟨-, -, -, -, -, -, -, -, -, -, e50, e51⟩ := idx_facts t
  refine funext fun a => Fin.ext ?_
  match a with
  | ⟨0, _⟩ => show win1_5.index t (0 : Fin 2) * 512 + 1 * p.val = t.val * 512 + p.val; omega
  | ⟨1, _⟩ => show win1_5.index t (1 : Fin 2) * 128 + 1 * q.val = q.val; omega

/-- WHAT POINT t WRITES BACK is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S512x128) hz, View.ld_unit_zero (S := S128x128) hz, View.ld_unit_zero (S := S1x128) hz]
  funext j
  obtain ⟨p, q, rfl⟩ : ∃ (p : Fin 512) (q : Fin 128), j = ix2 p q := ⟨j 0, j 1, eq_ix2 j⟩
  have hp : t.val * 512 + p.val < 50176 := by have := t_lt t; have := p.isLt; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [out_emb t p q hp]
  refine (pay_at (iblk1 V c 0 t) (iblk1 V c 1 t) (iblk1 V c 2 t) (iblk1 V c 3 t) (iblk1 V c 4 t) p q).trans ?_
  unfold G
  rw [mlpArr_apply]
  simp only [x_blk V c t p _ hp, w1_blk V c t, b1_blk V c t, w2_blk V c t, b2_blk V c t, rowOf_ix1]

/-! ## The output blocks tile the output array -/

/-- An index of the output array is in point t's block iff its row is in the block's range of rows. -/
theorem mem_blk (t : Fin cfg1.N) (i : S50176x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v18).slice (win1_5.rect t)).set ↔ _
  rw [View.set_slice_whole, Rect.mem_set_unit]
  exact Iff.rfl

/-- Every index of the output array is in the block of the point its row falls to. -/
theorem cover (i : S50176x128.Idx) :
    ∃ t : Fin cfg1.N, (cfg1.win 5).flush t = true ∧ i ∈ ((cfg1.win 5).blk t).view.set := by
  have hi0 : (i 0).val < 50176 := (i 0).isLt
  have hi1 : (i 1).val < 128 := (i 1).isLt
  have hN : (i 0).val / 512 < cfg1.N := lt_of_lt_of_eq (show (i 0).val / 512 < 98 by omega) N_1.symm
  refine ⟨⟨(i 0).val / 512, hN⟩, flush1_5 _, ?_⟩
  obtain ⟨-, -, -, -, -, -, -, -, -, -, e50, e51⟩ := idx_facts ⟨(i 0).val / 512, hN⟩
  rw [mem_blk]
  intro a
  match a with
  | ⟨0, _⟩ =>
    show win1_5.index ⟨(i 0).val / 512, hN⟩ (0 : Fin 2) * 512 ≤ (i 0).val ∧ (i 0).val < win1_5.index ⟨(i 0).val / 512, hN⟩ (0 : Fin 2) * 512 + 512
    rw [e50]; show (i 0).val / 512 * 512 ≤ (i 0).val ∧ (i 0).val < (i 0).val / 512 * 512 + 512; omega
  | ⟨1, _⟩ =>
    show win1_5.index ⟨(i 0).val / 512, hN⟩ (1 : Fin 2) * 128 ≤ (i 1).val ∧ (i 1).val < win1_5.index ⟨(i 0).val / 512, hN⟩ (1 : Fin 2) * 128 + 128
    rw [e51]; omega

/-- THE OUTPUT ARRAY AFTER THE REGION is the perceptron of every row of the padded matrix as the region found it. -/
theorem final (c : Dev nD) : (dat1 V c).arrAt 5 cfg1.N = G V c :=
  (dat1 V c).arrAt_eq_of_cover 5 (G V c) (fun t _ => flushed_eq V c t) cover

end Cert.KernelIdeal.Blocks1

end
-- ==== Proof.HostBetween.lean ====
/-
  From region 0's exit to region 1's exit. The segment mean over the first-level segments gives the first result;
  it is padded with 176 rows (of the value 0 converted from an integer) and handed, with two more reshaped biases, to
  region 1, which leaves the perceptron of every row of the padded matrix in its output array.
-/
import proofs.«151538_j4363686773150_1_alg».proof.Proof.HostEntry
import proofs.«151538_j4363686773150_1_alg».proof.Proof.Blocks1

set_option maxRecDepth 16384

noncomputable section

open scoped BigOperators

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx
open Cert.Mlp

variable (m : (ℓ : Loc nD τ sig) → Buf (Elt Ideal) ℓ) (ρ : Dev nD → PrngReg)

/-! ## The operations between the regions, from any contents

Stated for arbitrary buffer contents `W` at region 0's exit, so that each is a computation on the operations alone. -/

section AnyContents
variable (W : Valuation τ sig (Elt Ideal))

/-- The first result's buffer: the segment mean of region 0's output. -/
theorem between_cable :
    StableHlo.after hostOps1_2 (StableHlo.after hostOps1_1 (StableHlo.after hostOps1 W)) (Proc.devRef .tc main_v14)
      = Cert.Chain.mean1 (W (Proc.devRef .tc main_v2)) (W (Proc.devRef .tc main_arg1)) := by
  after_results_simp
  rfl

/-- The segment mean of region 0's output, right after the first stretch. -/
theorem mid_cable :
    StableHlo.after hostOps1 W (Proc.devRef .tc main_v14)
      = Cert.Chain.mean1 (W (Proc.devRef .tc main_v2)) (W (Proc.devRef .tc main_arg1)) := by
  after_results_simp
  rfl

/-- The integer zero the padding value is converted from. -/
theorem mid_zero : StableHlo.after hostOps1 W (Proc.devRef .tc main_c) = constantI S_ 32 0#32 := by
  after_results_simp

/-- The padding, from any contents `V` before it: the matrix in the first result's buffer with 176 rows appended, each
    holding the integer in `main_c` converted to a float. -/
theorem pad_of (V : Valuation τ sig (Elt Ideal)) :
    StableHlo.after hostOps1_2 (StableHlo.after hostOps1_1 V) (Proc.devRef .tc main_v15)
      = pad S50176x128 ![0, 0] ![176, 0] ![0, 0] (V (Proc.devRef .tc main_v14)) (sitofp (F := Ideal) .f32 (V (Proc.devRef .tc main_c)))
          Facts₀.pads_S50000x128_S50176x128_01760_000 Facts₀.h_S_ := by
  after_results_simp
  rfl

/-- Region 1's input matrix: that mean with 176 rows appended. -/
theorem between_x :
    StableHlo.after hostOps1_2 (StableHlo.after hostOps1_1 (StableHlo.after hostOps1 W)) (Proc.devRef .tc main_v15)
      = pad S50176x128 ![0, 0] ![176, 0] ![0, 0] (Cert.Chain.mean1 (W (Proc.devRef .tc main_v2)) (W (Proc.devRef .tc main_arg1)))
          (sitofp (F := Ideal) .f32 (constantI S_ 32 0#32)) Facts₀.pads_S50000x128_S50176x128_01760_000 Facts₀.h_S_ :=
  (pad_of (StableHlo.after hostOps1 W)).trans
    (congrArg₂ (fun y z => pad S50176x128 ![0, 0] ![176, 0] ![0, 0] y (sitofp (F := Ideal) .f32 z)
        Facts₀.pads_S50000x128_S50176x128_01760_000 Facts₀.h_S_) (mid_cable W) (mid_zero W))

/-- The second perceptron's weights are not written. -/
theorem between_w3 :
    StableHlo.after hostOps1_2 (StableHlo.after hostOps1_1 (StableHlo.after hostOps1 W)) (Proc.devRef .tc main_arg7)
      = W (Proc.devRef .tc main_arg7) := by
  after_results_simp
theorem between_w4 :
    StableHlo.after hostOps1_2 (StableHlo.after hostOps1_1 (StableHlo.after hostOps1 W)) (Proc.devRef .tc main_arg9)
      = W (Proc.devRef .tc main_arg9) := by
  after_results_simp

/-- Its biases are reshaped [128] → [1, 128]. -/
theorem between_b3 :
    StableHlo.after hostOps1_2 (StableHlo.after hostOps1_1 (StableHlo.after hostOps1 W)) (Proc.devRef .tc main_v16)
      = shapeCast S1x128 (W (Proc.devRef .tc main_arg8)) Facts₀.shapeCasts_S128_S1x128 := by
  after_results_simp
  rfl
theorem between_b4 :
    StableHlo.after hostOps1_2 (StableHlo.after hostOps1_1 (StableHlo.after hostOps1 W)) (Proc.devRef .tc main_v17)
      = shapeCast S1x128 (W (Proc.devRef .tc main_arg10)) Facts₀.shapeCasts_S128_S1x128 := by
  after_results_simp
  rfl

/-- The second-level segment ids are not written. -/
theorem between_seg2 :
    StableHlo.after hostOps1_2 (StableHlo.after hostOps1_1 (StableHlo.after hostOps1 W)) (Proc.devRef .tc main_arg2)
      = W (Proc.devRef .tc main_arg2) := by
  after_results_simp

end AnyContents

/-! ## Region 1's entry, from region 0's exit -/

/-- The first result's buffer at region 1's entry. -/
theorem W5_cable (c : Dev nD) : W5 m ρ c (Proc.devRef .tc main_v14) = cable m c :=
  (between_cable (W2 m ρ c)).trans (congrArg₂ Cert.Chain.mean1 (W2_out m ρ c) (W2_seg1 m ρ c))

/-- Region 1's input matrix: the first result with 176 rows appended. -/
theorem V5_x (c : Dev nD) :
    V5 m ρ c main_v15 = pad S50176x128 ![0, 0] ![176, 0] ![0, 0] (cable m c) (sitofp (F := Ideal) .f32 (constantI S_ 32 0#32))
      Facts₀.pads_S50000x128_S50176x128_01760_000 Facts₀.h_S_ :=
  (between_x (W2 m ρ c)).trans
    (congrArg (fun y => pad S50176x128 ![0, 0] ![176, 0] ![0, 0] y (sitofp (F := Ideal) .f32 (constantI S_ 32 0#32))
        Facts₀.pads_S50000x128_S50176x128_01760_000 Facts₀.h_S_)
      (congrArg₂ Cert.Chain.mean1 (W2_out m ρ c) (W2_seg1 m ρ c)))
theorem V5_w3 (c : Dev nD) : V5 m ρ c main_arg7 = w3In m c := (between_w3 (W2 m ρ c)).trans (W2_w3 m ρ c)
theorem V5_w4 (c : Dev nD) : V5 m ρ c main_arg9 = w4In m c := (between_w4 (W2 m ρ c)).trans (W2_w4 m ρ c)
theorem V5_b3 (c : Dev nD) : V5 m ρ c main_v16 = shapeCast S1x128 (b3In m c) Facts₀.shapeCasts_S128_S1x128 :=
  (between_b3 (W2 m ρ c)).trans (congrArg (fun b => shapeCast S1x128 b Facts₀.shapeCasts_S128_S1x128) (W2_b3 m ρ c))
theorem V5_b4 (c : Dev nD) : V5 m ρ c main_v17 = shapeCast S1x128 (b4In m c) Facts₀.shapeCasts_S128_S1x128 :=
  (between_b4 (W2 m ρ c)).trans (congrArg (fun b => shapeCast S1x128 b Facts₀.shapeCasts_S128_S1x128) (W2_b4 m ρ c))
theorem W5_seg2 (c : Dev nD) : W5 m ρ c (Proc.devRef .tc main_arg2) = seg2 m c := (between_seg2 (W2 m ρ c)).trans (W2_seg2 m ρ c)

/-! ## Region 1's exit -/

/-- Region 1 leaves the second perceptron of the padded matrix in its output array. -/
theorem W6_out (c : Dev nD) :
    W6 m ρ c (Proc.devRef .tc main_v18)
      = mlpArr (pad S50176x128 ![0, 0] ![176, 0] ![0, 0] (cable m c) (sitofp (F := Ideal) .f32 (constantI S_ 32 0#32))
          Facts₀.pads_S50000x128_S50176x128_01760_000 Facts₀.h_S_) (w3In m c) (b3In m c) (w4In m c) (b4In m c) := by
  exact (W6_arr m ρ c 5).trans ((Blocks1.final (V5 m ρ) c).trans
    (mlpArr_congr (V5_x m ρ c) (V5_w3 m ρ c) ((congrArg rowOf (V5_b3 m ρ c)).trans (rowOf_reshape _ _))
      (V5_w4 m ρ c) ((congrArg rowOf (V5_b4 m ρ c)).trans (rowOf_reshape _ _))))

end Cert.KernelIdeal.Host

end
-- ==== Proof.HostEnd.lean ====
/-
  After region 1: the 176 appended rows are cut off again and the segment mean over the second-level segments gives the
  second result; the first result's buffer is not written again.
-/
import proofs.«151538_j4363686773150_1_alg».proof.Proof.HostBetween

set_option maxRecDepth 16384

noncomputable section

open scoped BigOperators

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx
open Cert.Mlp

variable (m : (ℓ : Loc nD τ sig) → Buf (Elt Ideal) ℓ) (ρ : Dev nD → PrngReg)

/-! ## The operations after the regions, from any contents -/

section AnyContents
variable (W : Valuation τ sig (Elt Ideal))

/-- The first result's buffer is not written after region 1. -/
theorem end_cable : StableHlo.after hostOps2 W (Proc.devRef .tc main_v14) = W (Proc.devRef .tc main_v14) := by
  after_results_simp

/-- The second result: region 1's output with the appended rows cut off, then the segment mean. -/
theorem end_trans :
    StableHlo.after hostOps2 W (Proc.devRef .tc main_v31)
      = Cert.Chain.mean2 (extractStridedSlice S50000x128 ![0, 0] (W (Proc.devRef .tc main_v18)) Facts₀.slices_S50176x128_S50000x128_0_0)
          (W (Proc.devRef .tc main_arg2)) := by
  after_results_simp
  rfl

end AnyContents

/-! ## The two results -/

/-- THE FIRST RESULT's buffer at the end: region 1 and the operations after it do not write it. -/
theorem W7_cable (c : Dev nD) : W7 m ρ c (Proc.devRef .tc main_v14) = cable m c :=
  (end_cable (W6 m ρ c)).trans ((W6_of_ne m ρ c main_v14 (by decide)).trans (W5_cable m ρ c))

/-- Region 1's output with the appended rows cut off is the second perceptron of the first result. -/
theorem sliced_out (c : Dev nD) :
    extractStridedSlice S50000x128 ![0, 0] (W6 m ρ c (Proc.devRef .tc main_v18)) Facts₀.slices_S50176x128_S50000x128_0_0
      = mlpArr (cable m c) (w3In m c) (b3In m c) (w4In m c) (b4In m c) := by
  rw [W6_out m ρ c]
  exact slice_mlp_pad (cable m c) (sitofp (F := Ideal) .f32 (constantI S_ 32 0#32)) (w3In m c) (b3In m c) (w4In m c) (b4In m c)

/-- The second-level segment ids at region 1's exit are as launched. -/
theorem W6_seg2 (c : Dev nD) : W6 m ρ c (Proc.devRef .tc main_arg2) = seg2 m c :=
  (W6_of_ne m ρ c main_arg2 (by decide)).trans (W5_seg2 m ρ c)

/-- THE SECOND RESULT's buffer at the end. -/
theorem W7_trans (c : Dev nD) : W7 m ρ c (Proc.devRef .tc main_v31) = trans m c := by
  have h1 := end_trans (W6 m ρ c)
  have h2 := congrArg₂ Cert.Chain.mean2 (sliced_out m ρ c) (W6_seg2 m ρ c)
  exact h1.trans h2

end Cert.KernelIdeal.Host

end
-- ==== Proof.RefValue.lean ====
/-
  What the reference computes, as the same two functions the kernel's program is read at: the perceptron of every row
  (`Cert.Mlp.mlpArr`) followed by the segment mean (`Cert.Chain.mean1`, `mean2`), twice.

  The reference transposes each weight matrix and contracts its first axis, so that entry (r, q) of `x · wᵀ` is
  `∑ⱼ x[r, j] · w[q, j]`: the sum the perceptron is written with. Its biases are broadcast along the rows, and its
  `relu` is the maximum with a zero splat.
-/
import proofs.«151538_j4363686773150_1_alg».proof.Proof.Gen.ReferenceIdeal.Read
import proofs.«151538_j4363686773150_1_alg».proof.Proof.Mlp
import proofs.«151538_j4363686773150_1_alg».proof.Proof.Chain

noncomputable section

open scoped BigOperators

namespace Cert.RefValue

open Idealize.ShloMosaic Idealize.ShloMosaic.ValueIdx Cert.ReferenceIdeal Cert.ReferenceIdeal.Read

variable [Cert.ReferenceIdeal.Facts] [Cert.KernelIdeal.Facts]

/-! Each composed index of the first perceptron, at the entry (p, q), by its coordinates. -/

/-- Row p, column j of the input: the left operand of the first product, under the second product's sum over k. -/
private theorem cable_ix_x (p : Fin 1048576) (q k j : Fin 128) :
    lidx_main_v1 (lidx_main_v7 (ix2 p q) k) j = ix2 p j :=
  funext fun a => by match a with | ⟨0, _⟩ => rfl | ⟨1, _⟩ => rfl

/-- The transposed first weight read at (j, k) is the weight at (k, j). -/
private theorem cable_ix_w1 (p : Fin 1048576) (q k j : Fin 128) :
    idx_main_v0 (ridx_main_v1 (lidx_main_v7 (ix2 p q) k) j) = ix2 k j :=
  funext fun a => by match a with | ⟨0, _⟩ => rfl | ⟨1, _⟩ => rfl

/-- The first bias, broadcast along the rows, read at column k. -/
private theorem cable_ix_b1 (p : Fin 1048576) (q k : Fin 128) :
    idx_main_v2 (idx_main_v3 (lidx_main_v7 (ix2 p q) k)) = ix1 k :=
  funext fun a => by match a with | ⟨0, _⟩ => rfl

/-- The transposed second weight read at (k, q) is the weight at (q, k). -/
private theorem cable_ix_w2 (p : Fin 1048576) (q k : Fin 128) :
    idx_main_v6 (ridx_main_v7 (ix2 p q) k) = ix2 q k :=
  funext fun a => by match a with | ⟨0, _⟩ => rfl | ⟨1, _⟩ => rfl

/-- The second bias, broadcast along the rows, read at column q. -/
private theorem cable_ix_b2 (p : Fin 1048576) (q : Fin 128) :
    idx_main_v8 (idx_main_v9 (ix2 p q)) = ix1 q :=
  funext fun a => by match a with | ⟨0, _⟩ => rfl

/-- The first perceptron: the reference's value before its first scatter is `mlpArr` of the arguments. -/
theorem cable_mlp (x0 : (⟨S1048576x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v10 (F := Ideal) x0 x3 x4 x5 x6 = Cert.Mlp.mlpArr x0 x3 x4 x5 x6 := by
  funext i
  obtain ⟨p, q, rfl⟩ : ∃ (p : Fin 1048576) (q : Fin 128), i = ix2 p q := ⟨i 0, i 1, eq_ix2 i⟩
  rw [Cert.Mlp.mlpArr_apply]
  unfold Cert.Mlp.mlpRow
  simp only [val_main_v10_apply, val_main_v7_apply, val_main_v9_apply, val_main_v8_apply, val_main_v5_apply,
    val_main_v4_apply, val_main_v1_apply, val_main_v3_apply, val_main_v2_apply, val_main_v0_apply, val_main_v6_apply,
    val_main_call0_v0_apply, val_main_call0_cst_apply,
    cable_ix_x, cable_ix_w1, cable_ix_b1, cable_ix_w2, cable_ix_b2,
    Ideal.ofBits_def, Ideal.ofBits_zero_f32, Ideal.addf_def, Ideal.maximumf_def]

/-! The same five index equations for the second perceptron, whose input has 50000 rows. -/

private theorem trans_ix_x (p : Fin 50000) (q k j : Fin 128) :
    lidx_main_v24 (lidx_main_v30 (ix2 p q) k) j = ix2 p j :=
  funext fun a => by match a with | ⟨0, _⟩ => rfl | ⟨1, _⟩ => rfl

private theorem trans_ix_w1 (p : Fin 50000) (q k j : Fin 128) :
    idx_main_v23 (ridx_main_v24 (lidx_main_v30 (ix2 p q) k) j) = ix2 k j :=
  funext fun a => by match a with | ⟨0, _⟩ => rfl | ⟨1, _⟩ => rfl

private theorem trans_ix_b1 (p : Fin 50000) (q k : Fin 128) :
    idx_main_v25 (idx_main_v26 (lidx_main_v30 (ix2 p q) k)) = ix1 k :=
  funext fun a => by match a with | ⟨0, _⟩ => rfl

private theorem trans_ix_w2 (p : Fin 50000) (q k : Fin 128) :
    idx_main_v29 (ridx_main_v30 (ix2 p q) k) = ix2 q k :=
  funext fun a => by match a with | ⟨0, _⟩ => rfl | ⟨1, _⟩ => rfl

private theorem trans_ix_b2 (p : Fin 50000) (q : Fin 128) :
    idx_main_v31 (idx_main_v32 (ix2 p q)) = ix1 q :=
  funext fun a => by match a with | ⟨0, _⟩ => rfl

/-- The second perceptron, applied to the first result. -/
theorem trans_mlp (x0 : (⟨S1048576x128, .f32⟩ : BufTy).Contents (Elt Ideal)) (x1 : (⟨S1048576, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v33 (F := Ideal) x0 x1 x3 x4 x5 x6 x7 x8 x9 x10 = Cert.Mlp.mlpArr (val_main_v22 (F := Ideal) x0 x1 x3 x4 x5 x6) x7 x8 x9 x10 := by
  funext i
  obtain ⟨p, q, rfl⟩ : ∃ (p : Fin 50000) (q : Fin 128), i = ix2 p q := ⟨i 0, i 1, eq_ix2 i⟩
  rw [Cert.Mlp.mlpArr_apply]
  unfold Cert.Mlp.mlpRow
  rw [val_main_v33_apply, val_main_v30_apply, val_main_v32_apply, val_main_v31_apply, trans_ix_b2, Ideal.addf_def]
  refine congrArg₂ (· + ·) (Finset.sum_congr rfl fun k _ => ?_) rfl
  rw [val_main_v28_apply, val_main_v27_apply, val_main_v24_apply, val_main_v26_apply, val_main_v25_apply, trans_ix_b1,
    val_main_v29_apply, trans_ix_w2, val_main_call1_v0_apply, val_main_call1_cst_apply,
    Ideal.maximumf_def, Ideal.addf_def, Ideal.ofBits_def, Ideal.ofBits_zero_f32]
  refine congrArg₂ (· * ·) (congrArg₂ max (congrArg₂ (· + ·) (Finset.sum_congr rfl fun j _ => ?_) rfl) rfl) rfl
  rw [val_main_v23_apply, trans_ix_x, trans_ix_w1]

/-! The segment means. With an arbitrary array in the place of the perceptron's output, the reference's scatter-adds,
    count, maximum with one, broadcasts and divide are the terms `Cert.Chain.mean1` and `mean2` are made of: the side
    records of the two programs have the same fields, and their proof fields are equal as proofs of one proposition. -/

private theorem ref_mean1 (y : (⟨S1048576x128, .f32⟩ : BufTy).Contents (Elt Ideal)) (x1 : (⟨S1048576, .i32⟩ : BufTy).Contents (Elt Ideal)) :
    Host.divf (Host.scatterAdd scatter_S50000x128_S1048576x1_S1048576x128_1_0_0_1 (val_main_v11 (F := Ideal)) (val_main_v12 (F := Ideal) x1) y)
        (val_main_v21 (F := Ideal) x1)
      = Cert.Chain.mean1 y x1 := by
  unfold Cert.Chain.mean1 val_main_v21 val_main_v20 val_main_v19 val_main_v18 val_main_v17 val_main_v16 val_main_v15 val_main_v14
    val_main_v12 val_main_v11 val_main_cst val_main_cst_0 val_main_cst_1 val_main_cst_2
  rfl

private theorem ref_mean2 (y : (⟨S50000x128, .f32⟩ : BufTy).Contents (Elt Ideal)) (x2 : (⟨S50000, .i32⟩ : BufTy).Contents (Elt Ideal)) :
    Host.divf (Host.scatterAdd scatter_S2000x128_S50000x1_S50000x128_1_0_0_1 (val_main_v34 (F := Ideal)) (val_main_v35 (F := Ideal) x2) y)
        (val_main_v44 (F := Ideal) x2)
      = Cert.Chain.mean2 y x2 := by
  unfold Cert.Chain.mean2 val_main_v44 val_main_v43 val_main_v42 val_main_v41 val_main_v40 val_main_v39 val_main_v38 val_main_v37
    val_main_v35 val_main_v34 val_main_cst_3 val_main_cst_4 val_main_cst_5 val_main_cst_6
  rfl

/-- The reference's first result. -/
theorem ref_cable (x0 : (⟨S1048576x128, .f32⟩ : BufTy).Contents (Elt Ideal)) (x1 : (⟨S1048576, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v22 (F := Ideal) x0 x1 x3 x4 x5 x6 = Cert.Chain.mean1 (Cert.Mlp.mlpArr x0 x3 x4 x5 x6) x1 := by
  unfold val_main_v22 val_main_v13
  rw [cable_mlp]
  exact ref_mean1 _ x1

/-- The reference's second result. -/
theorem ref_trans (x0 : (⟨S1048576x128, .f32⟩ : BufTy).Contents (Elt Ideal)) (x1 : (⟨S1048576, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v45 (F := Ideal) x0 x1 x2 x3 x4 x5 x6 x7 x8 x9 x10
      = Cert.Chain.mean2 (Cert.Mlp.mlpArr (Cert.Chain.mean1 (Cert.Mlp.mlpArr x0 x3 x4 x5 x6) x1) x7 x8 x9 x10) x2 := by
  unfold val_main_v45 val_main_v36
  rw [trans_mlp, ref_cable]
  exact ref_mean2 _ x2

end Cert.RefValue

end
-- ==== Proof.lean ====
/-
  The kernel's program and the reference compute the same two results over the extended reals.

  Both apply, twice, a two-layer perceptron to every row of a matrix (`Cert.Mlp.mlpArr`: entry (r, q) is
  `∑ₖ max (∑ⱼ x[r, j] · w1[k, j] + b1[k]) 0 · w2[q, k] + b2[q]`) followed by a segment mean (`Cert.Chain.mean1`,
  `mean2`). The reference does so on whole matrices with transposed weights. The kernel's program computes each
  perceptron in a region of its own, block of rows by block of rows, on operands converted to a narrower float format
  (the identity on extended reals), the second one on the first result padded with 176 rows that are cut off again; a
  row of the perceptron depends on the same row of its input only, so blocking and padding change nothing. The
  segment means are the same host operations in both programs, applied to equal arguments, and are never opened.
  No law beyond the commutative-monoid structure of sums is used, so the precondition (finite inputs) is not needed.
-/
import proofs.«151538_j4363686773150_1_alg».proof.Defs
import proofs.«151538_j4363686773150_1_alg».proof.Proof.Gen.Kernel
import proofs.«151538_j4363686773150_1_alg».proof.Proof.Gen.Kernel.Frame
import proofs.«151538_j4363686773150_1_alg».proof.Proof.Gen.KernelIdeal
import proofs.«151538_j4363686773150_1_alg».proof.Proof.Gen.KernelIdeal.Frame
import proofs.«151538_j4363686773150_1_alg».proof.Proof.Gen.ReferenceIdeal
import proofs.«151538_j4363686773150_1_alg».proof.Proof.Gen.ReferenceIdeal.Run
import proofs.«151538_j4363686773150_1_alg».proof.Proof.Gen.ReferenceIdeal.Read
import proofs.«151538_j4363686773150_1_alg».proof.Proof.Gen.Pre_finite_inputs
import proofs.«151538_j4363686773150_1_alg».proof.Proof.KRun
import proofs.«151538_j4363686773150_1_alg».proof.Proof.HostEnd
import proofs.«151538_j4363686773150_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the first result at the segment mean of the first
    perceptron of the input matrix and the second at the segment mean of the second perceptron of the first result. -/
theorem algebraic : Cert.algebraic_KernelIdeal_ReferenceIdeal := by
  intro m ρ m' ρ' _ hagree
  refine ⟨fun c => Cert.KernelIdeal.Host.cable m c, fun c => Cert.KernelIdeal.Host.trans m c, ?_, ?_⟩
  · refine (θ_run Cert.KernelIdeal.defs _ _).mono (fun r h c => ?_) (Cert.KernelIdeal.Run.run_named (F := Ideal) m ρ)
    obtain ⟨h1, h2, hargs⟩ := h c
    exact ⟨h1.trans (Cert.KernelIdeal.Host.W7_cable m ρ c), h2.trans (Cert.KernelIdeal.Host.W7_trans m ρ c), hargs⟩
  · refine (θ_run Cert.ReferenceIdeal.defs _ _).mono (fun r h c => ?_) (Cert.ReferenceIdeal.Value.run (F := Ideal) m' ρ')
    obtain ⟨h1, h2, hargs⟩ := h c
    obtain ⟨a0, a1, a2, a3, a4, a5, a6, a7, a8, a9, a10⟩ := hagree c
    refine ⟨h1.trans ?_, h2.trans ?_, hargs⟩
    · rw [Cert.ReferenceIdeal.Read.val_main_v22_eq, Cert.RefValue.ref_cable, a0, a1, a3, a4, a5, a6]
      rfl
    · rw [Cert.ReferenceIdeal.Read.val_main_v45_eq, Cert.RefValue.ref_trans, a0, a1, a2, a3, a4, a5, a6, a7, a8, a9, a10]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
